-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x4x7x7 : Shape := ⟨5, ![64, 2048, 4, 7, 7]⟩
abbrev S_ : Shape := ⟨0, ![]⟩

class Facts : Prop where
  bcast_S_S64x2048x4x7x7 : S_.BroadcastsInDim S64x2048x4x7x7 (![] : Fin 0 → Fin S64x2048x4x7x7.rank)
  reducesTo_S64x2048x4x7x7_S_d0_1_2_3_4 : S64x2048x4x7x7.ReducesTo [0, 1, 2, 3, 4] S_
  h_S_ : 0 < S_.numel

variable [Facts]

def fn {F : FTy → Type} [FloatOps F] (main_arg0 : FVec F S64x2048x4x7x7 .f32) (main_arg1 : IVec S64x2048x4x7x7 1) : IVec S_ 1 :=
  let main_v0 : FVec F S64x2048x4x7x7 .f32 := Host.absf main_arg0
  let main_cst : FVec F S_ .f32 := constant S_ .f32 0x7F800000#32
  let main_v1 : FVec F S64x2048x4x7x7 .f32 := broadcastInDim S64x2048x4x7x7 ![] bcast_S_S64x2048x4x7x7 main_cst
  let main_v2 : IVec S64x2048x4x7x7 1 := cmpf .olt main_v0 main_v1
  let main_c : IVec S_ 1 := constantI S_ 1 1#1
  let main_v3 : IVec S_ 1 := (fun x v => Host.reduce IntOp.andi x v reducesTo_S64x2048x4x7x7_S_d0_1_2_3_4 h_S_) main_v2 main_c
  main_v3
-- ==== Kernel.lean ====
abbrev S64x2048x4x7x7 : Shape := ⟨5, ![64, 2048, 4, 7, 7]⟩
abbrev S25690112 : Shape := ⟨1, ![25690112]⟩
abbrev S200704x128 : Shape := ⟨2, ![200704, 128]⟩
abbrev S14336x128 : Shape := ⟨2, ![14336, 128]⟩

abbrev nBuf : Space → Nat
  | .hbm => 10
  | .vmem => 6
  | .smem => 0
  | _ => 0

abbrev bufTy : (tb : Table) → Fin (tcTables nBuf tb) → BufTy
  | .hbm, ⟨0, _⟩ => ⟨S64x2048x4x7x7, .f32⟩
  | .hbm, ⟨1, _⟩ => ⟨S64x2048x4x7x7, .i1⟩
  | .hbm, ⟨2, _⟩ => ⟨S25690112, .f32⟩
  | .hbm, ⟨3, _⟩ => ⟨S25690112, .i1⟩
  | .hbm, ⟨4, _⟩ => ⟨S200704x128, .f32⟩
  | .hbm, ⟨5, _⟩ => ⟨S200704x128, .i1⟩
  | .hbm, ⟨6, _⟩ => ⟨S200704x128, .i32⟩
  | .hbm, ⟨7, _⟩ => ⟨S200704x128, .f32⟩
  | .hbm, ⟨8, _⟩ => ⟨S25690112, .f32⟩
  | .hbm, ⟨9, _⟩ => ⟨S64x2048x4x7x7, .f32⟩
  | .local _ .vmem, ⟨0, _⟩ => ⟨S14336x128, .f32⟩
  | .local _ .vmem, ⟨1, _⟩ => ⟨S14336x128, .f32⟩
  | .local _ .vmem, ⟨2, _⟩ => ⟨S14336x128, .i32⟩
  | .local _ .vmem, ⟨3, _⟩ => ⟨S14336x128, .i32⟩
  | .local _ .vmem, ⟨4, _⟩ => ⟨S14336x128, .f32⟩
  | .local _ .vmem, ⟨5, _⟩ => ⟨S14336x128, .f32⟩
  | _, _ => ⟨S64x2048x4x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14336x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S14336x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S14336x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x2048x4x7x7_S25690112 : S64x2048x4x7x7.ShapeCasts S25690112
  shapeCasts_S25690112_S200704x128 : S25690112.ShapeCasts S200704x128
  natLt_1_32 : 1 < 32
  inb_S14336x128_S14336x128_0_0 : ∀ a, (![0, 0] : Fin 2 → Nat) a + S14336x128.size a ≤ S14336x128.size a
  h_S14336x128 : 0 < S14336x128.numel
  shapeCasts_S14336x128_S14336x128 : S14336x128.ShapeCasts S14336x128
  shapeCasts_S200704x128_S25690112 : S200704x128.ShapeCasts S25690112
  shapeCasts_S25690112_S64x2048x4x7x7 : S25690112.ShapeCasts S64x2048x4x7x7
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S14336x128.size a ≤ S200704x128.size a
  hwx0_0 : ∀ i : grid0.Coords, EltTy.bits .f32 = 32 ∨ (Rect.block (s := S200704x128) S14336x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S14336x128.size a ≤ S200704x128.size a
  hwx0_1 : ∀ i : grid0.Coords, EltTy.bits .i32 = 32 ∨ (Rect.block (s := S200704x128) S14336x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S14336x128.size a ≤ S200704x128.size a
  hwx0_2 : ∀ i : grid0.Coords, EltTy.bits .f32 = 32 ∨ (Rect.block (s := S200704x128) S14336x128.size (cc0_transform_2 i) (hinb0_2 i)).WholeWords (EltTy.packing .f32)

variable [Facts₀]

abbrev win0_0 : Pipeline.Window sig grid0 :=
  Pipeline.Window.ofSpec (Memref.whole main_v2) S14336x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S14336x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S14336x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S64x2048x4x7x7 : Shape := ⟨5, ![64, 2048, 4, 7, 7]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S64x2048x4x7x7, .f32⟩
  | .hbm, ⟨1, _⟩ => ⟨S64x2048x4x7x7, .i1⟩
  | .hbm, ⟨2, _⟩ => ⟨S_, .f32⟩
  | .hbm, ⟨3, _⟩ => ⟨S64x2048x4x7x7, .f32⟩
  | .hbm, ⟨4, _⟩ => ⟨S64x2048x4x7x7, .f32⟩
  | .hbm, ⟨5, _⟩ => ⟨S_, .f32⟩
  | .hbm, ⟨6, _⟩ => ⟨S64x2048x4x7x7, .f32⟩
  | .hbm, ⟨7, _⟩ => ⟨S64x2048x4x7x7, .f32⟩
  | _, _ => ⟨S64x2048x4x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S64x2048x4x7x7 : S_.BroadcastsInDim S64x2048x4x7x7 (![] : Fin 0 → Fin S64x2048x4x7x7.rank)

variable [Facts₀]

class Facts : Prop extends Facts₀ where

variable [Facts]
-- ==== Proof.KeepScale.lean ====
/-
  Inverted dropout at keep-probability one half, one element at a time.

  An element whose keep-bit is set is doubled; an element whose keep-bit is clear becomes zero. The doubling
  constant is the float word of 2 and the fill constant the float word of 0, the same two words in both
  programs, so neither is ever evaluated: the two sides agree as terms, at every float instance.

  One program carries the keep-bit as a one-bit value and selects on it directly. The other first widens it
  to a 32-bit word (zero-extension) and selects on "the word is not zero". Zero-extension sends the clear bit to
  the zero word and the set bit to the word 1, so the test gives back the bit it started from.
-/
import Idealize.ShloMosaic.PureOps

namespace Cert.Dropout

open Idealize.ShloMosaic

variable {F : FTy → Type} [FloatOps F]

/-- One element of the result, from the element and its one-bit keep flag. -/
def keepScale (x : F .f32) (k : BitVec 1) : F .f32 :=
  Scalar.select k (FloatOps.mulf x (FloatOps.ofBits .f32 0x40000000#32)) (FloatOps.ofBits .f32 0x00000000#32)

/-- The same, from the element and a 32-bit mask word: kept iff the word is not zero. -/
def keepScaleWord (x : F .f32) (w : BitVec 32) : F .f32 :=
  Scalar.select (IntOp.cmpi .ne w 0#32) (FloatOps.mulf x (FloatOps.ofBits .f32 0x40000000#32)) (FloatOps.ofBits .f32 0x00000000#32)

/-- A one-bit flag, zero-extended to a word and tested against zero, is the flag. -/
theorem widened_ne_zero (k : BitVec 1) : IntOp.cmpi .ne (k.setWidth 32) 0#32 = k := by
  revert k
  decide

/-- On a zero-extended keep flag the word form is the one-bit form. -/
theorem keepScaleWord_widened (x : F .f32) (k : BitVec 1) : keepScaleWord x (k.setWidth 32) = keepScale x k := by
  unfold keepScaleWord keepScale
  rw [widened_ne_zero]

end Cert.Dropout
-- ==== Proof.KernelRows.lean ====
/-
  The kernel's output array when the region ends, as one function of the two arrays the region reads.

  The region works on the flattened data as 200704 rows of 128 lanes, in 14 steps of 14336 rows. At step `t` it
  loads rows `14336·t … 14336·t + 14335` of the values and of the mask words, computes one whole block by the
  pointwise rule "double the value where the mask word is not zero, else zero", and writes the block back to the
  same rows of the output. All three windows use the same block index (step `t`, lane block 0), so the block the
  step writes is exactly those rows of ONE whole-array function: entry `(r, l)` of the output is the rule applied
  to entry `(r, l)` of the values and entry `(r, l)` of the mask words. The 14 blocks tile the rows (row `r`
  lies in step `r / 14336`), so the whole output array ends as that function.
-/
import proofs.«419509_j16106127360680_3_alg».proof.Proof.Gen.KernelIdeal.Frame
import proofs.«419509_j16106127360680_3_alg».proof.Proof.KeepScale
import Idealize.ShloMosaic.Lib.Pipeline.Value

set_option maxRecDepth 16384

noncomputable section

namespace Cert.KernelIdeal.Rows

open Cert.KernelIdeal Cert.KernelIdeal.Gen Cert.Dropout
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ)

/-- Every access of the body starts at the block's origin. -/
theorem origin_zero : (![0, 0] : Fin 2 → Nat) = fun _ => 0 := funext fun a => by fin_cases a <;> rfl

/-- The rule over whole row-by-lane arrays: entry by entry, the value doubled where the mask word is not zero. -/
abbrev rowsOf (a0 : S200704x128.Idx → Elt F .f32) (a1 : S200704x128.Idx → Elt F .i32) : S200704x128.Idx → Elt F .f32 :=
  fun i => keepScaleWord (F := F) (a0 i) (a1 i)

/-- The body's stored value is the rule applied entry by entry to its two loaded blocks (its two shape casts are
    to the block's own shape, hence the identity; every other step is pointwise). -/
theorem payload_eq (x0 : Vec F S14336x128 .f32) (x1 : Vec F S14336x128 .i32) :
    k0_pay1 x0 x1 = fun j => keepScaleWord (F := F) (x0 j) (x1 j) := by
  unfold k0_pay1
  simp only [shapeCast_self]
  rfl

/-- The three windows move together: at every step the value block and the mask block have the output block's
    index, which is (step, 0) with the step below 14. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 13
    ∧ win0_2.index t (1 : Fin 2) = 0 :=
  (by decide +kernel : ∀ t : Fin grid0.N, _)

/-- Every row block is some step's. -/
theorem block_onto : ∀ q : Fin 14, ∃ t : Fin cfg0.N, win0_2.index t = ![q.val, 0] :=
  (by decide +kernel : ∀ q : Fin 14, ∃ t : Fin grid0.N, win0_2.index t = ![q.val, 0])

/-- What step `t` writes back is block `t` of the rule over the two arrays as the region finds them. -/
theorem flushed_eq (c : Dev nD) (t : Fin cfg0.N) :
    (dats m 0 c).flushed 2 t = ((cfg0.win 2).blk t).view.read (Elt F) (rowsOf (V m c main_v2) (V m c main_v4)) := by
  show (cfg0.win 2).cut (grid0.coords t) ((dats m 0 c).after 2 t) = _
  rw [after0_2]
  unfold out0_2
  rw [View.canon_unit_zero origin_zero]
  simp only [View.ld_unit_zero (S := S14336x128) origin_zero]
  rw [payload_eq]
  obtain ⟨e0, e1, e2, e3, e4, e5⟩ := same_block t
  funext j
  show keepScaleWord (V m c main_v2 (((cfg0.win 0).blk t).view.emb j)) (V m c main_v4 (((cfg0.win 1).blk t).view.emb j))
    = keepScaleWord (V m c main_v2 (((cfg0.win 2).blk t).view.emb j)) (V m c main_v4 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 14336 + 1 * (j 0).val = win0_2.index t (0 : Fin 2) * 14336 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 14336 + 1 * (j 0).val = win0_2.index t (0 : Fin 2) * 14336 + 1 * (j 0).val; omega
    | ⟨1, _⟩ => show win0_1.index t (1 : Fin 2) * 128 + 1 * (j 1).val = win0_2.index t (1 : Fin 2) * 128 + 1 * (j 1).val; omega
  rw [h0, h1]

/-- An entry of the output array lies in step `t`'s block iff each coordinate is in the block's range on its axis. -/
theorem mem_blk (t : Fin cfg0.N) (i : S200704x128.Idx) :
    i ∈ ((cfg0.win 2).blk t).view.set ↔ ∀ a : Fin 2, win0_2.index t a * S14336x128.size a ≤ (i a).val ∧ (i a).val < win0_2.index t a * S14336x128.size a + S14336x128.size a := by
  show i ∈ ((View.whole main_v5).slice (win0_2.rect t)).set ↔ _
  rw [View.set_slice_whole, Rect.mem_set_unit]
  exact Iff.rfl

/-- The blocks tile the array: row `r` is written at the step whose block index is `r / 14336`. -/
theorem covered (i : S200704x128.Idx) :
    ∃ t : Fin cfg0.N, (cfg0.win 2).flush t = true ∧ i ∈ ((cfg0.win 2).blk t).view.set := by
  have hi0 : (i 0).val < 200704 := (i 0).isLt
  have hi1 : (i 1).val < 128 := (i 1).isLt
  obtain ⟨t, ht⟩ := block_onto ⟨(i 0).val / 14336, by omega⟩
  have q0 : win0_2.index t (0 : Fin 2) = (i 0).val / 14336 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 14336 ≤ (i 0).val ∧ (i 0).val < win0_2.index t (0 : Fin 2) * 14336 + 14336; omega
  | ⟨1, _⟩ => show win0_2.index t (1 : Fin 2) * 128 ≤ (i 1).val ∧ (i 1).val < win0_2.index t (1 : Fin 2) * 128 + 128; omega

/-- The output array after the last step: the rule over the two arrays the region reads, entry by entry. -/
theorem final (c : Dev nD) : (dats m 0 c).arrAt 2 cfg0.N = rowsOf (V m c main_v2) (V m c main_v4) :=
  (dats m 0 c).arrAt_eq_of_cover 2 (rowsOf (V m c main_v2) (V m c main_v4)) (fun t _ => flushed_eq m c t) covered

end Cert.KernelIdeal.Rows

end
-- ==== Proof.FlatRoundTrip.lean ====
/-
  A pointwise rule does not see a change of shape.

  Re-laying an array under another shape with the same number of entries only renames indices: entry `j` of the
  new shape is the entry of the old shape at the same row-major position. So applying a pointwise rule to re-laid
  operands gives the re-laid result of the rule, and re-laying there and back is the identity. Hence: flatten two
  five-axis arrays to rows, apply the dropout rule row entry by row entry (on the mask's zero-extended words), and
  re-lay the rows back to five axes — the result is the dropout rule on the original arrays, entry by entry.
-/
import proofs.«419509_j16106127360680_3_alg».proof.Proof.KeepScale
import Idealize.ShloMosaic.Lib.Pipeline.Value

namespace Cert.Dropout

open Idealize.ShloMosaic

variable {F : FTy → Type} [FloatOps F]

/-- Through shapes `s → u → r` and back `r → u → s` (all of one entry count), the rule on the re-laid operands,
    re-laid back, is the rule on the operands. -/
theorem relaid_rule {s u r : Shape} (hsu : s.ShapeCasts u) (hur : u.ShapeCasts r) (hru : r.ShapeCasts u) (hus : u.ShapeCasts s)
    (x : s.Idx → F .f32) (k : s.Idx → BitVec 1) :
    shapeCast s (shapeCast u (fun j => keepScaleWord (F := F) (shapeCast r (shapeCast u x hsu) hur j)
        ((shapeCast r (shapeCast u k hsu) hur j).setWidth 32)) hru) hus
      = fun i => keepScale (F := F) (x i) (k i) := by
  have h : (fun j => keepScaleWord (F := F) (shapeCast r (shapeCast u x hsu) hur j)
        ((shapeCast r (shapeCast u k hsu) hur j).setWidth 32))
      = shapeCast r (shapeCast u (fun i => keepScale (F := F) (x i) (k i)) hsu) hur := by
    funext j
    rw [keepScaleWord_widened]
    rfl
  rw [h, shapeCast_shapeCast, shapeCast_shapeCast]

end Cert.Dropout
-- ==== Proof.KernelWhole.lean ====
/-
  The kernel's whole run: what its result array holds, as a function of its two arguments.

  Before the region the program flattens the values and the keep flags to one axis and re-lays them as 200704 rows
  of 128 lanes; the flags are then zero-extended to 32-bit words. The region applies the dropout rule row entry by
  row entry (the output array after the last step is that rule over the two row arrays). After the region the
  program flattens the rows and re-lays them under the original five axes. A pointwise rule commutes with these
  re-layings, and re-laying there and back is the identity, so the result array holds, at every five-axis index,
  the element doubled where its keep flag is set and zero where it is clear.
-/
import proofs.«419509_j16106127360680_3_alg».proof.Proof.Gen.KernelIdeal.Frame
import proofs.«419509_j16106127360680_3_alg».proof.Proof.KernelRows
import proofs.«419509_j16106127360680_3_alg».proof.Proof.FlatRoundTrip
import Idealize.ShloMosaic.Lib.StableHlo.Run

set_option maxRecDepth 16384

noncomputable section

namespace Cert.KernelIdeal.Whole

open Cert.KernelIdeal Cert.KernelIdeal.Gen Cert.Dropout
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- The value rows the region reads: the first argument flattened, then re-laid as rows. -/
theorem value_rows (c : Dev nD) :
    V m c main_v2 = shapeCast S200704x128 (shapeCast S25690112 (m ((c : Thread nD τ).loc main_arg0))
      shapeCasts_S64x2048x4x7x7_S25690112) shapeCasts_S25690112_S200704x128 := by
  show StableHlo.after hostOps0 (fun b => m (c, b)) (Proc.devRef .tc main_v2) = _
  after_results
  rfl

/-- The mask words the region reads: the second argument flattened, re-laid as rows, each flag zero-extended. -/
theorem mask_rows (c : Dev nD) :
    V m c main_v4 = extui 32 (shapeCast S200704x128 (shapeCast S25690112 (m ((c : Thread nD τ).loc main_arg1))
      shapeCasts_S64x2048x4x7x7_S25690112) shapeCasts_S25690112_S200704x128) natLt_1_32 := by
  show StableHlo.after hostOps0 (fun b => m (c, b)) (Proc.devRef .tc main_v4) = _
  after_results
  rfl

/-- What the lines after the region leave in the result array: the dropout rule on the arguments, entry by entry. -/
theorem result_eq (c : Dev nD) :
    Pipeline.afterTail₀ cfgs (dats m) 0 (V0 m) [hostOps1] c main_v7
      = fun i => keepScale (F := F) (m ((c : Thread nD τ).loc main_arg0) i) (m ((c : Thread nD τ).loc main_arg1) i) := by
  unfold Pipeline.afterTail₀
  show StableHlo.after hostOps1 _ (Proc.devRef .tc main_v7) = _
  after_results
  rw [Pipeline.withArrays_arr spec0 launch0.win.arr_inj c _ _ 2, Rows.final m c, value_rows, mask_rows]
  exact relaid_rule shapeCasts_S64x2048x4x7x7_S25690112 shapeCasts_S25690112_S200704x128
    shapeCasts_S200704x128_S25690112 shapeCasts_S25690112_S64x2048x4x7x7 _ _

/-- Every weakly fair execution terminates with the result array at the dropout rule of the arguments, entry by
    entry, and the arguments unchanged. -/
theorem run : θ_run defs (onTc (τ := τ) (main (F := F))) ⟨m, fun _ => 0, ρ⟩ fun r => ∀ c : Dev nD,
      r.2.mem ((c.tc : Thread nD τ).loc main_v7)
        = (fun i => keepScale (F := F) (m ((c.tc : Thread nD τ).loc main_arg0) i) (m ((c.tc : Thread nD τ).loc main_arg1) i))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.ReferenceValue.lean ====
/-
  What the reference computes, index by index.

  The reference is three pointwise steps over the five-axis array: multiply by a broadcast scalar 2, broadcast a
  scalar 0, and select between the two on the keep flag. A broadcast of a rank-0 array reads its one entry at
  every index, so at index `i` the result is the element doubled when the flag at `i` is set and the zero word
  otherwise: the scalar function `keepScale` applied to the two arrays' entries at `i`.
-/
import proofs.«419509_j16106127360680_3_alg».proof.Proof.Gen.ReferenceIdeal.Run
import proofs.«419509_j16106127360680_3_alg».proof.Proof.Gen.ReferenceIdeal.Read
import proofs.«419509_j16106127360680_3_alg».proof.Proof.KeepScale

noncomputable section

namespace Cert.ReferenceIdeal.RefValue

open Cert.ReferenceIdeal Cert.ReferenceIdeal.Gen Cert.ReferenceIdeal.Read Idealize.ShloMosaic Cert.Dropout

variable {F : FTy → Type} [FloatOps F]

/-- The run's result term is `keepScale` of the element and the flag, at every index. -/
theorem result_eq (x : (⟨S64x2048x4x7x7, .f32⟩ : BufTy).Contents (Elt F)) (k : (⟨S64x2048x4x7x7, .i1⟩ : BufTy).Contents (Elt F)) :
    select (k) (mulf (x) (broadcastInDim S64x2048x4x7x7 ![] bcast_S_S64x2048x4x7x7 (constant S_ .f32 0x40000000#32))) (broadcastInDim S64x2048x4x7x7 ![] bcast_S_S64x2048x4x7x7 (constant S_ .f32 0x00000000#32))
      = fun i => keepScale (F := F) (x i) (k i) := by
  funext i
  rw [val_main_v2_eq, val_main_v2_apply, val_main_v1_apply, val_main_v0_apply, val_main_cst_apply,
    val_main_call0_v0_apply, val_main_cst_0_apply]
  rfl

end Cert.ReferenceIdeal.RefValue

end
-- ==== Proof.lean ====
/-
  Inverted dropout at keep-probability one half: the kernel and its reference agree over the extended reals.

  The reference doubles every element whose keep flag is set and puts zero where the flag is clear, pointwise over
  a five-axis array. The kernel flattens the array to rows of 128 lanes, zero-extends the flags to 32-bit words,
  applies the same rule block of rows by block of rows (testing "word not zero"), and re-lays the rows under the
  original five axes. Re-laying only renames indices and a zero-extended flag is nonzero exactly when the flag is
  set, so at every index both programs hold the same term: the element times the float word of 2, or the float
  word of 0. The two constants are the same words on both sides and the rule is pointwise, so no law of the
  extended reals is used and finiteness of the input plays no part in the equality.

  The kernel's and the idealized kernel's frames are the generated frame runs; the reference's frame is its
  generated run with the result dropped; the idealization rewrote nothing, so it preserves trivially.
-/
import proofs.«419509_j16106127360680_3_alg».proof.Defs
import proofs.«419509_j16106127360680_3_alg».proof.Proof.Gen.Kernel
import proofs.«419509_j16106127360680_3_alg».proof.Proof.Gen.Kernel.Skeleton
import proofs.«419509_j16106127360680_3_alg».proof.Proof.Gen.Kernel.Launch
import proofs.«419509_j16106127360680_3_alg».proof.Proof.Gen.Kernel.Points
import proofs.«419509_j16106127360680_3_alg».proof.Proof.Gen.Kernel.Frame
import proofs.«419509_j16106127360680_3_alg».proof.Proof.Gen.KernelIdeal
import proofs.«419509_j16106127360680_3_alg».proof.Proof.Gen.KernelIdeal.Skeleton
import proofs.«419509_j16106127360680_3_alg».proof.Proof.Gen.KernelIdeal.Launch
import proofs.«419509_j16106127360680_3_alg».proof.Proof.Gen.KernelIdeal.Points
import proofs.«419509_j16106127360680_3_alg».proof.Proof.Gen.KernelIdeal.Frame
import proofs.«419509_j16106127360680_3_alg».proof.Proof.Gen.ReferenceIdeal
import proofs.«419509_j16106127360680_3_alg».proof.Proof.Gen.ReferenceIdeal.Run
import proofs.«419509_j16106127360680_3_alg».proof.Proof.Gen.Pre_finite_inputs
import proofs.«419509_j16106127360680_3_alg».proof.Proof.KernelWhole
import proofs.«419509_j16106127360680_3_alg».proof.Proof.ReferenceValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the dropout rule of the
    arguments, entry by entry: the element doubled where its keep flag is set, zero where it is clear. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
